-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S384x128 : Shape := ⟨2, ![384, 128]⟩
abbrev S384 : Shape := ⟨1, ![384]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S384x128 .f32) (main_arg6 : FVec F S384 .f32) (main_arg7 : FVec F S384 .f32) (main_arg8 : FVec F S128x128 .f32) (main_arg9 : FVec F S128 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S384x128 .f32 := Host.absf main_arg5
  let main_cst_6 : FVec F S_ .f32 := constant S_ .f32 0x7F800000#32
  let main_v20 : FVec F S384x128 .f32 := broadcastInDim S384x128 ![] bcast_S_S384x128 main_cst_6
  let main_v21 : IVec S384x128 1 := cmpf .olt main_v19 main_v20
  let main_c_7 : IVec S_ 1 := constantI S_ 1 1#1
  let main_v22 : IVec S_ 1 := (fun x v => Host.reduce IntOp.andi x v reducesTo_S384x128_S_d0_1 h_S_) main_v21 main_c_7
  let main_v23 : IVec S_ 1 := andi main_v18 main_v22
  let main_v24 : FVec F S384 .f32 := Host.absf main_arg6
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S384 .f32 := Host.absf main_arg7
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x600000 32) (main_arg2 : FVec F S600000 .f32) (main_arg3 : FVec F S128x128 .f32) (main_arg4 : FVec F S384x128 .f32) (main_arg5 : FVec F S384x128 .f32) (main_arg6 : FVec F S384 .f32) (main_arg7 : FVec F S384 .f32) (main_arg8 : FVec F S128x128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000 .f32 := Host.absf main_arg2
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S384x128 .f32 := Host.absf main_arg4
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S384x128 : Shape := ⟨2, ![384, 128]⟩
abbrev S384 : Shape := ⟨1, ![384]⟩
abbrev S128 : Shape := ⟨1, ![128]⟩
abbrev S128x384 : Shape := ⟨2, ![128, 384]⟩
abbrev S1x384 : Shape := ⟨2, ![1, 384]⟩
abbrev S_ : Shape := ⟨0, ![]⟩
abbrev S50000 : Shape := ⟨1, ![50000]⟩
abbrev S1x600000 : Shape := ⟨2, ![1, 600000]⟩
abbrev S650000 : Shape := ⟨1, ![650000]⟩
abbrev S650000x1 : Shape := ⟨2, ![650000, 1]⟩
abbrev S2000x128 : Shape := ⟨2, ![2000, 128]⟩
abbrev S650000x128 : Shape := ⟨2, ![650000, 128]⟩
abbrev S1x128 : Shape := ⟨2, ![1, 128]⟩

abbrev nBuf : Space → Nat
  | .hbm => 114
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000, .f32⟩
  | .hbm, ⟨3, _⟩ => ⟨S128x128, .f32⟩
  | .hbm, ⟨4, _⟩ => ⟨S384x128, .f32⟩
  | .hbm, ⟨5, _⟩ => ⟨S384x128, .f32⟩
  | .hbm, ⟨6, _⟩ => ⟨S384, .f32⟩
  | .hbm, ⟨7, _⟩ => ⟨S384, .f32⟩
  | .hbm, ⟨8, _⟩ => ⟨S128x128, .f32⟩
  | .hbm, ⟨9, _⟩ => ⟨S128, .f32⟩
  | .hbm, ⟨10, _⟩ => ⟨S128x384, .f32⟩
  | .hbm, ⟨11, _⟩ => ⟨S128x384, .f32⟩
  | .hbm, ⟨12, _⟩ => ⟨S1x384, .f32⟩
  | .hbm, ⟨13, _⟩ => ⟨S128x384, .f32⟩
  | .hbm, ⟨14, _⟩ => ⟨S128x384, .f32⟩
  | .hbm, ⟨15, _⟩ => ⟨S128x384, .f32⟩
  | .hbm, ⟨16, _⟩ => ⟨S128x384, .f32⟩
  | .hbm, ⟨17, _⟩ => ⟨S1x384, .f32⟩
  | .hbm, ⟨18, _⟩ => ⟨S128x384, .f32⟩
  | .hbm, ⟨19, _⟩ => ⟨S128x384, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S128x128, .f32⟩
  | .hbm, ⟨24, _⟩ => ⟨S128x128, .f32⟩
  | .hbm, ⟨25, _⟩ => ⟨S128x128, .f32⟩
  | .hbm, ⟨26, _⟩ => ⟨S128x128, .f32⟩
  | .hbm, ⟨27, _⟩ => ⟨S128x128, .f32⟩
  | .hbm, ⟨28, _⟩ => ⟨S128x128, .f32⟩
  | .hbm, ⟨29, _⟩ => ⟨S_, .f32⟩
  | .hbm, ⟨30, _⟩ => ⟨S128x128, .f32⟩
  | .hbm, ⟨31, _⟩ => ⟨S128x128, .f32⟩
  | .hbm, ⟨32, _⟩ => ⟨S_, .f32⟩
  | .hbm, ⟨33, _⟩ => ⟨S128x128, .f32⟩
  | .hbm, ⟨34, _⟩ => ⟨S128x128, .f32⟩
  | .hbm, ⟨35, _⟩ => ⟨S128x128, .f32⟩
  | .hbm, ⟨36, _⟩ => ⟨S128x128, .f32⟩
  | .hbm, ⟨37, _⟩ => ⟨S128x128, .f32⟩
  | .hbm, ⟨38, _⟩ => ⟨S_, .f32⟩
  | .hbm, ⟨39, _⟩ => ⟨S128x128, .f32⟩
  | .hbm, ⟨40, _⟩ => ⟨S128x128, .f32⟩
  | .hbm, ⟨41, _⟩ => ⟨S_, .f32⟩
  | .hbm, ⟨42, _⟩ => ⟨S128x128, .f32⟩
  | .hbm, ⟨43, _⟩ => ⟨S128x128, .f32⟩
  | .hbm, ⟨44, _⟩ => ⟨S128x128, .f32⟩
  | .hbm, ⟨45, _⟩ => ⟨S128x128, .f32⟩
  | .hbm, ⟨46, _⟩ => ⟨S128x128, .f32⟩
  | .hbm, ⟨47, _⟩ => ⟨S_, .f32⟩
  | .hbm, ⟨48, _⟩ => ⟨S128x128, .f32⟩
  | .hbm, ⟨49, _⟩ => ⟨S128x128, .f32⟩
  | .hbm, ⟨50, _⟩ => ⟨S128x128, .f32⟩
  | .hbm, ⟨51, _⟩ => ⟨S128x128, .f32⟩
  | .hbm, ⟨52, _⟩ => ⟨S128x128, .f32⟩
  | .hbm, ⟨53, _⟩ => ⟨S50000, .i32⟩
  | .hbm, ⟨54, _⟩ => ⟨S1x600000, .i32⟩
  | .hbm, ⟨55, _⟩ => ⟨S600000, .i32⟩
  | .hbm, ⟨56, _⟩ => ⟨S650000, .i32⟩
  | .hbm, ⟨57, _⟩ => ⟨S1x600000, .i32⟩
  | .hbm, ⟨58, _⟩ => ⟨S600000, .i32⟩
  | .hbm, ⟨59, _⟩ => ⟨S650000, .i32⟩
  | .hbm, ⟨60, _⟩ => ⟨S_, .f32⟩
  | .hbm, ⟨61, _⟩ => ⟨S50000, .f32⟩
  | .hbm, ⟨62, _⟩ => ⟨S650000, .f32⟩
  | .hbm, ⟨63, _⟩ => ⟨S_, .f32⟩
  | .hbm, ⟨64, _⟩ => ⟨S50000, .f32⟩
  | .hbm, ⟨65, _⟩ => ⟨S650000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .i1⟩
  | .hbm, ⟨70, _⟩ => ⟨S50000, .f32⟩
  | .hbm, ⟨71, _⟩ => ⟨S_, .f32⟩
  | .hbm, ⟨72, _⟩ => ⟨S_, .f32⟩
  | .hbm, ⟨73, _⟩ => ⟨S50000, .f32⟩
  | .hbm, ⟨74, _⟩ => ⟨S50000, .f32⟩
  | .hbm, ⟨75, _⟩ => ⟨S_, .i32⟩
  | .hbm, ⟨76, _⟩ => ⟨S650000, .i32⟩
  | .hbm, ⟨77, _⟩ => ⟨S650000, .i1⟩
  | .hbm, ⟨78, _⟩ => ⟨S_, .i32⟩
  | .hbm, ⟨79, _⟩ => ⟨S650000, .i32⟩
  | .hbm, ⟨80, _⟩ => ⟨S650000, .i32⟩
  | .hbm, ⟨81, _⟩ => ⟨S650000, .i32⟩
  | .hbm, ⟨82, _⟩ => ⟨S650000x1, .i32⟩
  | .hbm, ⟨83, _⟩ => ⟨S650000, .f32⟩
  | .hbm, ⟨84, _⟩ => ⟨S650000, .f32⟩
  | .hbm, ⟨85, _⟩ => ⟨S_, .i32⟩
  | .hbm, ⟨86, _⟩ => ⟨S650000, .i32⟩
  | .hbm, ⟨87, _⟩ => ⟨S650000, .i1⟩
  | .hbm, ⟨88, _⟩ => ⟨S_, .i32⟩
  | .hbm, ⟨89, _⟩ => ⟨S650000, .i32⟩
  | .hbm, ⟨90, _⟩ => ⟨S650000, .i32⟩
  | .hbm, ⟨91, _⟩ => ⟨S650000, .i32⟩
  | .hbm, ⟨92, _⟩ => ⟨S650000x1, .i32⟩
  | .hbm, ⟨93, _⟩ => ⟨S650000, .f32⟩
  | .hbm, ⟨94, _⟩ => ⟨S650000, .f32⟩
  | .hbm, ⟨95, _⟩ => ⟨S50000x128, .f32⟩
  | .hbm, ⟨96, _⟩ => ⟨S650000x1, .f32⟩
  | .hbm, ⟨97, _⟩ => ⟨S_, .i32⟩
  | .hbm, ⟨98, _⟩ => ⟨S650000, .i32⟩
  | .hbm, ⟨99, _⟩ => ⟨S650000, .i1⟩
  | .hbm, ⟨100, _⟩ => ⟨S_, .i32⟩
  | .hbm, ⟨101, _⟩ => ⟨S650000, .i32⟩
  | .hbm, ⟨102, _⟩ => ⟨S650000, .i32⟩
  | .hbm, ⟨103, _⟩ => ⟨S650000, .i32⟩
  | .hbm, ⟨104, _⟩ => ⟨S650000x1, .i32⟩
  | .hbm, ⟨105, _⟩ => ⟨S650000x128, .f32⟩
  | .hbm, ⟨106, _⟩ => ⟨S650000x128, .f32⟩
  | .hbm, ⟨107, _⟩ => ⟨S650000x128, .f32⟩
  | .hbm, ⟨108, _⟩ => ⟨S_, .f32⟩
  | .hbm, ⟨109, _⟩ => ⟨S50000x128, .f32⟩
  | .hbm, ⟨110, _⟩ => ⟨S650000x1, .i32⟩
  | .hbm, ⟨111, _⟩ => ⟨S50000x128, .f32⟩
  | .hbm, ⟨112, _⟩ => ⟨S128x128, .f32⟩
  | .hbm, ⟨113, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x128, .f32⟩
  | .local _ .vmem, ⟨8, _⟩ => ⟨S128, .f32⟩
  | .local _ .vmem, ⟨9, _⟩ => ⟨S2000x128, .f32⟩
  | .local _ .vmem, ⟨10, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_4 : Ref sig .tc := ⟨.hbm, 60, rfl⟩
abbrev main_v45 : Ref sig .tc := ⟨.hbm, 61, rfl⟩
abbrev main_v46 : Ref sig .tc := ⟨.hbm, 62, rfl⟩
abbrev main_cst_5 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_6 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_7 : Ref sig .tc := ⟨.hbm, 71, rfl⟩
abbrev main_call0_v0 : Ref sig .tc := ⟨.hbm, 72, rfl⟩
abbrev main_call0_v1 : Ref sig .tc := ⟨.hbm, 73, rfl⟩
abbrev main_v53 : Ref sig .tc := ⟨.hbm, 74, rfl⟩
abbrev main_c : Ref sig .tc := ⟨.hbm, 75, rfl⟩
abbrev main_v54 : Ref sig .tc := ⟨.hbm, 76, rfl⟩
abbrev main_v55 : Ref sig .tc := ⟨.hbm, 77, rfl⟩
abbrev main_c_8 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_9 : Ref sig .tc := ⟨.hbm, 85, rfl⟩
abbrev main_v62 : Ref sig .tc := ⟨.hbm, 86, rfl⟩
abbrev main_v63 : Ref sig .tc := ⟨.hbm, 87, rfl⟩
abbrev main_c_10 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_11 : Ref sig .tc := ⟨.hbm, 97, rfl⟩
abbrev main_v72 : Ref sig .tc := ⟨.hbm, 98, rfl⟩
abbrev main_v73 : Ref sig .tc := ⟨.hbm, 99, rfl⟩
abbrev main_c_12 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_13 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S384x128_S128x384_1_0 : S384x128.Transposes [1, 0] S128x384
  bcast_S384_S1x384_1 : S384.BroadcastsInDim S1x384 (![1] : Fin 1 → Fin S1x384.rank)
  bcast_S1x384_S128x384_0_1 : S1x384.BroadcastsInDim S128x384 (![0, 1] : Fin 2 → Fin S128x384.rank)
  slices_S128x384_S128x128_0_0 : S128x384.Slices ![0, 0] S128x128
  slices_S128x384_S128x128_0_128 : S128x384.Slices ![0, 128] S128x128
  slices_S128x384_S128x128_0_256 : S128x384.Slices ![0, 256] S128x128
  bcast_S_S128x128 : S_.BroadcastsInDim S128x128 (![] : Fin 0 → Fin S128x128.rank)
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S50000 : S_.BroadcastsInDim S50000 (![] : Fin 0 → Fin S50000.rank)
  bcast_S650000_S650000x1_0 : S650000.BroadcastsInDim S650000x1 (![0] : Fin 1 → Fin S650000x1.rank)
  bcast_S_S650000 : S_.BroadcastsInDim S650000 (![] : Fin 0 → Fin S650000.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  transposes_S128x128_S128x128_1_0 : S128x128.Transposes [1, 0] S128x128
  shapeCasts_S2000x128_S2000x128 : S2000x128.ShapeCasts S2000x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  dot_S128x128_S128x384_S128x384_1_0_0_1_n_n_wf : DotDims.WF S128x128 S128x384 S128x384 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S2000x128_S128x128_S2000x128_1_0_0_1_n_n_wf : DotDims.WF S2000x128 S128x128 S2000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)

variable [Facts₀]

def dot_S128x128_S128x384_S128x384_1_0_0_1_n_n : DotDims S128x128 S128x384 S128x384 where
  lhsContracting := [1]
  rhsContracting := [0]
  lhsNonContracting := [0]
  rhsNonContracting := [1]
  lhsBatch := []
  rhsBatch := []
  wf := dot_S128x128_S128x384_S128x384_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v70) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v83) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v84) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v85) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S384x128 : Shape := ⟨2, ![384, 128]⟩
abbrev S384 : Shape := ⟨1, ![384]⟩
abbrev S128 : Shape := ⟨1, ![128]⟩
abbrev S128x384 : Shape := ⟨2, ![128, 384]⟩
abbrev S1x384 : Shape := ⟨2, ![1, 384]⟩
abbrev S_ : Shape := ⟨0, ![]⟩
abbrev S50000 : Shape := ⟨1, ![50000]⟩
abbrev S1x600000 : Shape := ⟨2, ![1, 600000]⟩
abbrev S650000 : Shape := ⟨1, ![650000]⟩
abbrev S650000x1 : Shape := ⟨2, ![650000, 1]⟩
abbrev S650000x128 : Shape := ⟨2, ![650000, 128]⟩
abbrev S1x128 : Shape := ⟨2, ![1, 128]⟩

abbrev nBuf : Space → Nat
  | .hbm => 120
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000, .f32⟩
  | .hbm, ⟨3, _⟩ => ⟨S128x128, .f32⟩
  | .hbm, ⟨4, _⟩ => ⟨S384x128, .f32⟩
  | .hbm, ⟨5, _⟩ => ⟨S384x128, .f32⟩
  | .hbm, ⟨6, _⟩ => ⟨S384, .f32⟩
  | .hbm, ⟨7, _⟩ => ⟨S384, .f32⟩
  | .hbm, ⟨8, _⟩ => ⟨S128x128, .f32⟩
  | .hbm, ⟨9, _⟩ => ⟨S128, .f32⟩
  | .hbm, ⟨10, _⟩ => ⟨S128x384, .f32⟩
  | .hbm, ⟨11, _⟩ => ⟨S128x384, .f32⟩
  | .hbm, ⟨12, _⟩ => ⟨S1x384, .f32⟩
  | .hbm, ⟨13, _⟩ => ⟨S128x384, .f32⟩
  | .hbm, ⟨14, _⟩ => ⟨S128x384, .f32⟩
  | .hbm, ⟨15, _⟩ => ⟨S128x384, .f32⟩
  | .hbm, ⟨16, _⟩ => ⟨S128x384, .f32⟩
  | .hbm, ⟨17, _⟩ => ⟨S1x384, .f32⟩
  | .hbm, ⟨18, _⟩ => ⟨S128x384, .f32⟩
  | .hbm, ⟨19, _⟩ => ⟨S128x384, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S128x128, .f32⟩
  | .hbm, ⟨24, _⟩ => ⟨S128x128, .f32⟩
  | .hbm, ⟨25, _⟩ => ⟨S128x128, .f32⟩
  | .hbm, ⟨26, _⟩ => ⟨S128x128, .f32⟩
  | .hbm, ⟨27, _⟩ => ⟨S128x128, .f32⟩
  | .hbm, ⟨28, _⟩ => ⟨S128x128, .f32⟩
  | .hbm, ⟨29, _⟩ => ⟨S_, .f32⟩
  | .hbm, ⟨30, _⟩ => ⟨S128x128, .f32⟩
  | .hbm, ⟨31, _⟩ => ⟨S128x128, .f32⟩
  | .hbm, ⟨32, _⟩ => ⟨S_, .f32⟩
  | .hbm, ⟨33, _⟩ => ⟨S128x128, .f32⟩
  | .hbm, ⟨34, _⟩ => ⟨S128x128, .f32⟩
  | .hbm, ⟨35, _⟩ => ⟨S128x128, .f32⟩
  | .hbm, ⟨36, _⟩ => ⟨S128x128, .f32⟩
  | .hbm, ⟨37, _⟩ => ⟨S128x128, .f32⟩
  | .hbm, ⟨38, _⟩ => ⟨S_, .f32⟩
  | .hbm, ⟨39, _⟩ => ⟨S128x128, .f32⟩
  | .hbm, ⟨40, _⟩ => ⟨S128x128, .f32⟩
  | .hbm, ⟨41, _⟩ => ⟨S_, .f32⟩
  | .hbm, ⟨42, _⟩ => ⟨S128x128, .f32⟩
  | .hbm, ⟨43, _⟩ => ⟨S128x128, .f32⟩
  | .hbm, ⟨44, _⟩ => ⟨S128x128, .f32⟩
  | .hbm, ⟨45, _⟩ => ⟨S128x128, .f32⟩
  | .hbm, ⟨46, _⟩ => ⟨S128x128, .f32⟩
  | .hbm, ⟨47, _⟩ => ⟨S_, .f32⟩
  | .hbm, ⟨48, _⟩ => ⟨S128x128, .f32⟩
  | .hbm, ⟨49, _⟩ => ⟨S128x128, .f32⟩
  | .hbm, ⟨50, _⟩ => ⟨S128x128, .f32⟩
  | .hbm, ⟨51, _⟩ => ⟨S128x128, .f32⟩
  | .hbm, ⟨52, _⟩ => ⟨S128x128, .f32⟩
  | .hbm, ⟨53, _⟩ => ⟨S50000, .i32⟩
  | .hbm, ⟨54, _⟩ => ⟨S1x600000, .i32⟩
  | .hbm, ⟨55, _⟩ => ⟨S600000, .i32⟩
  | .hbm, ⟨56, _⟩ => ⟨S650000, .i32⟩
  | .hbm, ⟨57, _⟩ => ⟨S1x600000, .i32⟩
  | .hbm, ⟨58, _⟩ => ⟨S600000, .i32⟩
  | .hbm, ⟨59, _⟩ => ⟨S650000, .i32⟩
  | .hbm, ⟨60, _⟩ => ⟨S_, .f32⟩
  | .hbm, ⟨61, _⟩ => ⟨S50000, .f32⟩
  | .hbm, ⟨62, _⟩ => ⟨S650000, .f32⟩
  | .hbm, ⟨63, _⟩ => ⟨S_, .f32⟩
  | .hbm, ⟨64, _⟩ => ⟨S50000, .f32⟩
  | .hbm, ⟨65, _⟩ => ⟨S650000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .i1⟩
  | .hbm, ⟨70, _⟩ => ⟨S50000, .f32⟩
  | .hbm, ⟨71, _⟩ => ⟨S_, .f32⟩
  | .hbm, ⟨72, _⟩ => ⟨S_, .f32⟩
  | .hbm, ⟨73, _⟩ => ⟨S50000, .f32⟩
  | .hbm, ⟨74, _⟩ => ⟨S50000, .f32⟩
  | .hbm, ⟨75, _⟩ => ⟨S_, .i32⟩
  | .hbm, ⟨76, _⟩ => ⟨S650000, .i32⟩
  | .hbm, ⟨77, _⟩ => ⟨S650000, .i1⟩
  | .hbm, ⟨78, _⟩ => ⟨S_, .i32⟩
  | .hbm, ⟨79, _⟩ => ⟨S650000, .i32⟩
  | .hbm, ⟨80, _⟩ => ⟨S650000, .i32⟩
  | .hbm, ⟨81, _⟩ => ⟨S650000, .i32⟩
  | .hbm, ⟨82, _⟩ => ⟨S650000x1, .i32⟩
  | .hbm, ⟨83, _⟩ => ⟨S650000, .f32⟩
  | .hbm, ⟨84, _⟩ => ⟨S650000, .f32⟩
  | .hbm, ⟨85, _⟩ => ⟨S_, .i32⟩
  | .hbm, ⟨86, _⟩ => ⟨S650000, .i32⟩
  | .hbm, ⟨87, _⟩ => ⟨S650000, .i1⟩
  | .hbm, ⟨88, _⟩ => ⟨S_, .i32⟩
  | .hbm, ⟨89, _⟩ => ⟨S650000, .i32⟩
  | .hbm, ⟨90, _⟩ => ⟨S650000, .i32⟩
  | .hbm, ⟨91, _⟩ => ⟨S650000, .i32⟩
  | .hbm, ⟨92, _⟩ => ⟨S650000x1, .i32⟩
  | .hbm, ⟨93, _⟩ => ⟨S650000, .f32⟩
  | .hbm, ⟨94, _⟩ => ⟨S650000, .f32⟩
  | .hbm, ⟨95, _⟩ => ⟨S50000x128, .f32⟩
  | .hbm, ⟨96, _⟩ => ⟨S650000x1, .f32⟩
  | .hbm, ⟨97, _⟩ => ⟨S_, .i32⟩
  | .hbm, ⟨98, _⟩ => ⟨S650000, .i32⟩
  | .hbm, ⟨99, _⟩ => ⟨S650000, .i1⟩
  | .hbm, ⟨100, _⟩ => ⟨S_, .i32⟩
  | .hbm, ⟨101, _⟩ => ⟨S650000, .i32⟩
  | .hbm, ⟨102, _⟩ => ⟨S650000, .i32⟩
  | .hbm, ⟨103, _⟩ => ⟨S650000, .i32⟩
  | .hbm, ⟨104, _⟩ => ⟨S650000x1, .i32⟩
  | .hbm, ⟨105, _⟩ => ⟨S650000x128, .f32⟩
  | .hbm, ⟨106, _⟩ => ⟨S650000x128, .f32⟩
  | .hbm, ⟨107, _⟩ => ⟨S650000x128, .f32⟩
  | .hbm, ⟨108, _⟩ => ⟨S_, .f32⟩
  | .hbm, ⟨109, _⟩ => ⟨S50000x128, .f32⟩
  | .hbm, ⟨110, _⟩ => ⟨S650000x1, .i32⟩
  | .hbm, ⟨111, _⟩ => ⟨S50000x128, .f32⟩
  | .hbm, ⟨112, _⟩ => ⟨S_, .f32⟩
  | .hbm, ⟨113, _⟩ => ⟨S50000x128, .f32⟩
  | .hbm, ⟨114, _⟩ => ⟨S50000x128, .f32⟩
  | .hbm, ⟨115, _⟩ => ⟨S128x128, .f32⟩
  | .hbm, ⟨116, _⟩ => ⟨S50000x128, .f32⟩
  | .hbm, ⟨117, _⟩ => ⟨S1x128, .f32⟩
  | .hbm, ⟨118, _⟩ => ⟨S50000x128, .f32⟩
  | .hbm, ⟨119, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_4 : Ref sig .tc := ⟨.hbm, 60, rfl⟩
abbrev main_v45 : Ref sig .tc := ⟨.hbm, 61, rfl⟩
abbrev main_v46 : Ref sig .tc := ⟨.hbm, 62, rfl⟩
abbrev main_cst_5 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_6 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_7 : Ref sig .tc := ⟨.hbm, 71, rfl⟩
abbrev main_call0_v0 : Ref sig .tc := ⟨.hbm, 72, rfl⟩
abbrev main_call0_v1 : Ref sig .tc := ⟨.hbm, 73, rfl⟩
abbrev main_v53 : Ref sig .tc := ⟨.hbm, 74, rfl⟩
abbrev main_c : Ref sig .tc := ⟨.hbm, 75, rfl⟩
abbrev main_v54 : Ref sig .tc := ⟨.hbm, 76, rfl⟩
abbrev main_v55 : Ref sig .tc := ⟨.hbm, 77, rfl⟩
abbrev main_c_8 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_9 : Ref sig .tc := ⟨.hbm, 85, rfl⟩
abbrev main_v62 : Ref sig .tc := ⟨.hbm, 86, rfl⟩
abbrev main_v63 : Ref sig .tc := ⟨.hbm, 87, rfl⟩
abbrev main_c_10 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_11 : Ref sig .tc := ⟨.hbm, 97, rfl⟩
abbrev main_v72 : Ref sig .tc := ⟨.hbm, 98, rfl⟩
abbrev main_v73 : Ref sig .tc := ⟨.hbm, 99, rfl⟩
abbrev main_c_12 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_13 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_call1_cst : Ref sig .tc := ⟨.hbm, 112, rfl⟩
abbrev main_call1_v0 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩

abbrev nD : Nat := 1
abbrev τ : Topo := Topo.v7x

variable {F : FTy → Type} [FloatOps F]

class Facts₀ : Prop where
  transposes_S384x128_S128x384_1_0 : S384x128.Transposes [1, 0] S128x384
  bcast_S384_S1x384_1 : S384.BroadcastsInDim S1x384 (![1] : Fin 1 → Fin S1x384.rank)
  bcast_S1x384_S128x384_0_1 : S1x384.BroadcastsInDim S128x384 (![0, 1] : Fin 2 → Fin S128x384.rank)
  slices_S128x384_S128x128_0_0 : S128x384.Slices ![0, 0] S128x128
  slices_S128x384_S128x128_0_128 : S128x384.Slices ![0, 128] S128x128
  slices_S128x384_S128x128_0_256 : S128x384.Slices ![0, 256] S128x128
  bcast_S_S128x128 : S_.BroadcastsInDim S128x128 (![] : Fin 0 → Fin S128x128.rank)
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S50000 : S_.BroadcastsInDim S50000 (![] : Fin 0 → Fin S50000.rank)
  bcast_S650000_S650000x1_0 : S650000.BroadcastsInDim S650000x1 (![0] : Fin 1 → Fin S650000x1.rank)
  bcast_S_S650000 : S_.BroadcastsInDim S650000 (![] : Fin 0 → Fin S650000.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S128x128_S128x384_S128x384_1_0_0_1_n_n_wf : DotDims.WF S128x128 S128x384 S128x384 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1

variable [Facts₀]

def dot_S128x128_S128x384_S128x384_1_0_0_1_n_n : DotDims S128x128 S128x384 S128x384 where
  lhsContracting := [1]
  rhsContracting := [0]
  lhsNonContracting := [0]
  rhsNonContracting := [1]
  lhsBatch := []
  rhsBatch := []
  wf := dot_S128x128_S128x384_S128x384_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

class Facts : Prop extends Facts₀ where

variable [Facts]
-- ==== Proof.Spec.lean ====
/-
  What the two dense stages compute, as whole-array functions over the extended reals, index by index.

  The program applies two row-tiled matrix products to a 50000 x 128 array. The first is the plain product
  of the node features with the evolved 128 x 128 weight. The second clamps its left operand below at zero
  (the rectifier), multiplies by the transposed output weight and adds the bias along the rows. Both are
  stated here once, for the literal shapes, so that the tiled computation (block by block) and the host's
  single contraction can each be compared with the same function.
-/
import Idealize.ShloMosaic.Lib.ValueIdx

noncomputable section

open scoped BigOperators

namespace Cert.Spec

open Idealize.ShloMosaic Idealize.ShloMosaic.ValueIdx

/-- The tall arrays: 50000 rows of 128 lanes. -/
abbrev Rows : Shape := ⟨2, ![50000, 128]⟩
/-- The square weights. -/
abbrev Sq : Shape := ⟨2, ![128, 128]⟩
/-- One row of lanes. -/
abbrev Lane : Shape := ⟨1, ![128]⟩

/-- The matrix product `X · W`: entry `(r, q)` is the sum over `k` of `X[r, k] · W[k, q]`. -/
def matProd (X : Rows.Idx → EReal) (W : Sq.Idx → EReal) : Rows.Idx → EReal :=
  fun i => ∑ k : Fin 128, X (ix2 (n0 := 50000) (n1 := 128) (i 0) k) * W (ix2 (n0 := 128) (n1 := 128) k (i 1))

/-- The rectified affine map `max(H, 0) · Wt + b`: entry `(r, q)` is the sum over `k` of
    `max(H[r, k], 0) · Wt[k, q]`, plus `b[q]`. The zero is kept as the word both programs print. -/
def reluAffine (H : Rows.Idx → EReal) (Wt : Sq.Idx → EReal) (b : Lane.Idx → EReal) : Rows.Idx → EReal :=
  fun i => (∑ k : Fin 128, max (H (ix2 (n0 := 50000) (n1 := 128) (i 0) k)) (Ideal.ofBits .f32 0x00000000#32)
      * Wt (ix2 (n0 := 128) (n1 := 128) k (i 1))) + b (ix1 (n := 128) (i 1))

end Cert.Spec

end
-- ==== Proof.RefBridge.lean ====
/-
  The reference program's result, re-read through the two whole-array functions of the specification.

  The reference computes, in order: the evolved weight `W` (one recurrent-cell step on small matrices), the
  normalised edge weights, the product `x · W`, the neighbourhood sums of the weighted gathered rows, and
  finally `max(h, 0) · W_linᵀ + b`. Its two contractions are single host contractions; index by index each
  is the sum the specification states. The neighbourhood sums are a gather, a product and a scatter-add whose
  index arrays do not depend on the features: as a function of the transformed features they are named
  `aggregate` here, so that the other program's aggregation, applied to ITS transformed features, is the
  same function applied to an equal argument.
-/
import proofs.«109544_j3770981286463_1_alg».proof.Proof.Gen.ReferenceIdeal.Read
import proofs.«109544_j3770981286463_1_alg».proof.Proof.Spec

set_option maxRecDepth 16384

noncomputable section

open scoped BigOperators

namespace Cert.ReferenceIdeal.Bridge

open Cert.ReferenceIdeal Cert.ReferenceIdeal.Gen Cert.ReferenceIdeal.Read Idealize.ShloMosaic Idealize.ShloMosaic.TcCoe
open Idealize.ShloMosaic.ValueIdx

variable {F : FTy → Type} [FloatOps F]

/-- The neighbourhood sums as a function of the transformed features `xw`: every edge (and self-loop) `e` adds
    `norm[e] · xw[row[e], :]` into row `col[e]`. The edge list `x1` and the edge weights `x2` fix `row`, `col`
    and `norm`; `xw` is only gathered from. -/
def aggregate (x1 : (⟨S2x600000, .i32⟩ : BufTy).Contents (Elt F)) (x2 : (⟨S600000, .f32⟩ : BufTy).Contents (Elt F))
    (xw : (⟨S50000x128, .f32⟩ : BufTy).Contents (Elt F)) : (⟨S50000x128, .f32⟩ : BufTy).Contents (Elt F) :=
  Host.scatterAdd scatter_S50000x128_S650000x1_S650000x128_1_0_0_1 (val_main_v81 (F := F)) (val_main_v82 (F := F) x1)
    (mulf (val_main_v79 (F := F) x1 x2)
      (Host.gather gather_S50000x128_S650000x1_S650000x128_1_0_n_n_0_1_1128 xw (val_main_v77 (F := F) x1)))

/-- The reference's neighbourhood sums are `aggregate` of its own transformed features. -/
theorem v83_eq (x0 : (⟨S50000x128, .f32⟩ : BufTy).Contents (Elt F)) (x1 : (⟨S2x600000, .i32⟩ : BufTy).Contents (Elt F))
    (x2 : (⟨S600000, .f32⟩ : BufTy).Contents (Elt F)) (x3 : (⟨S128x128, .f32⟩ : BufTy).Contents (Elt F))
    (x4 x5 : (⟨S384x128, .f32⟩ : BufTy).Contents (Elt F)) (x6 x7 : (⟨S384, .f32⟩ : BufTy).Contents (Elt F)) :
    val_main_v83 (F := F) x0 x1 x2 x3 x4 x5 x6 x7 = aggregate x1 x2 (val_main_v70 (F := F) x0 x3 x4 x5 x6 x7) := rfl

/-- The reference's transformed features are the matrix product of the features with the evolved weight. -/
theorem v70_eq (x0 : (⟨S50000x128, .f32⟩ : BufTy).Contents (Elt Ideal)) (x3 : (⟨S128x128, .f32⟩ : BufTy).Contents (Elt Ideal))
    (x4 x5 : (⟨S384x128, .f32⟩ : BufTy).Contents (Elt Ideal)) (x6 x7 : (⟨S384, .f32⟩ : BufTy).Contents (Elt Ideal)) :
    val_main_v70 (F := Ideal) x0 x3 x4 x5 x6 x7 = Cert.Spec.matProd x0 (val_main_v37 (F := Ideal) x3 x4 x5 x6 x7) := by
  funext i
  rw [val_main_v70_apply]
  unfold Cert.Spec.matProd
  refine Finset.sum_congr rfl fun k _ => ?_
  have el : lidx_main_v70 i k = ix2 (n0 := 50000) (n1 := 128) (i 0) k := funext fun a => Fin.ext (by
    match a with
    | ⟨0, _⟩ => rfl
    | ⟨1, _⟩ => rfl)
  have er : ridx_main_v70 i k = ix2 (n0 := 128) (n1 := 128) k (i 1) := funext fun a => Fin.ext (by
    match a with
    | ⟨0, _⟩ => rfl
    | ⟨1, _⟩ => rfl)
  rw [el, er]

/-- The reference's result is the rectified affine map of its neighbourhood sums. -/
theorem v89_eq (x0 : (⟨S50000x128, .f32⟩ : BufTy).Contents (Elt Ideal)) (x1 : (⟨S2x600000, .i32⟩ : BufTy).Contents (Elt Ideal))
    (x2 : (⟨S600000, .f32⟩ : BufTy).Contents (Elt Ideal)) (x3 : (⟨S128x128, .f32⟩ : BufTy).Contents (Elt Ideal))
    (x4 x5 : (⟨S384x128, .f32⟩ : BufTy).Contents (Elt Ideal)) (x6 x7 : (⟨S384, .f32⟩ : BufTy).Contents (Elt Ideal))
    (x8 : (⟨S128x128, .f32⟩ : BufTy).Contents (Elt Ideal)) (x9 : (⟨S128, .f32⟩ : BufTy).Contents (Elt Ideal)) :
    val_main_v89 (F := Ideal) x0 x1 x2 x3 x4 x5 x6 x7 x8 x9
      = Cert.Spec.reluAffine (val_main_v83 (F := Ideal) x0 x1 x2 x3 x4 x5 x6 x7) (val_main_v85 (F := Ideal) x8) x9 := by
  funext i
  have eb : idx_main_v87 (idx_main_v88 i) = ix1 (n := 128) (i 1) := funext fun a => Fin.ext (by
    match a with
    | ⟨0, _⟩ => rfl)
  have hbias : val_main_v88 (F := Ideal) x9 i = x9 (ix1 (n := 128) (i 1)) :=
    (val_main_v88_apply (F := Ideal) x9 i).trans
      ((val_main_v87_apply (F := Ideal) x9 (idx_main_v88 i)).trans (congrArg x9 eb))
  have hsum : val_main_v86 (F := Ideal) x0 x1 x2 x3 x4 x5 x6 x7 x8 i
      = ∑ k : Fin 128, (max ((val_main_v83 (F := Ideal) x0 x1 x2 x3 x4 x5 x6 x7 (ix2 (n0 := 50000) (n1 := 128) (i 0) k)) : EReal)
          (Ideal.ofBits .f32 0x00000000#32) : EReal) * ((val_main_v85 (F := Ideal) x8 (ix2 (n0 := 128) (n1 := 128) k (i 1))) : EReal) := by
    refine (val_main_v86_apply x0 x1 x2 x3 x4 x5 x6 x7 x8 i).trans ?_
    refine Finset.sum_congr rfl fun k _ => ?_
    have el : lidx_main_v86 i k = ix2 (n0 := 50000) (n1 := 128) (i 0) k := funext fun a => Fin.ext (by
      match a with
      | ⟨0, _⟩ => rfl
      | ⟨1, _⟩ => rfl)
    have er : ridx_main_v86 i k = ix2 (n0 := 128) (n1 := 128) k (i 1) := funext fun a => Fin.ext (by
      match a with
      | ⟨0, _⟩ => rfl
      | ⟨1, _⟩ => rfl)
    rw [el, er]
    have hz : ((val_main_call1_v0 (F := Ideal) (ix2 (n0 := 50000) (n1 := 128) (i 0) k)) : EReal) = Ideal.ofBits .f32 0x00000000#32 :=
      (val_main_call1_v0_apply (F := Ideal) (ix2 (n0 := 50000) (n1 := 128) (i 0) k)).trans
        (val_main_call1_cst_apply (F := Ideal) _)
    have hrelu : ((val_main_v84 (F := Ideal) x0 x1 x2 x3 x4 x5 x6 x7 (ix2 (n0 := 50000) (n1 := 128) (i 0) k)) : EReal)
        = max ((val_main_v83 (F := Ideal) x0 x1 x2 x3 x4 x5 x6 x7 (ix2 (n0 := 50000) (n1 := 128) (i 0) k)) : EReal) (Ideal.ofBits .f32 0x00000000#32) :=
      (val_main_v84_apply (F := Ideal) x0 x1 x2 x3 x4 x5 x6 x7 (ix2 (n0 := 50000) (n1 := 128) (i 0) k)).trans
        (congrArg (max ((val_main_v83 (F := Ideal) x0 x1 x2 x3 x4 x5 x6 x7 (ix2 (n0 := 50000) (n1 := 128) (i 0) k)) : EReal)) hz)
    exact congrArg (· * ((val_main_v85 (F := Ideal) x8 (ix2 (n0 := 128) (n1 := 128) k (i 1))) : EReal)) hrelu
  refine (val_main_v89_apply (F := Ideal) x0 x1 x2 x3 x4 x5 x6 x7 x8 x9 i).trans ?_
  exact (congrArg₂ (fun (a b : EReal) => a + b) hsum hbias)

end Cert.ReferenceIdeal.Bridge

end
-- ==== Proof.HostBridge.lean ====
/-
  The host stretches of the tiled program, read against the reference's stages.

  Outside its two tiled stages the program runs the very operations the reference runs, in the same order: the
  recurrent-cell step that evolves the weight, the edge lists with self-loops appended, the degree
  normalisation, and (between the stages) the gather, the scaling and the scatter-add of the neighbourhood
  sums. Each buffer such a stretch leaves is therefore the reference's stage of the same name, as a function
  of the launch arguments; the buffers a tiled stage writes enter as parameters.
-/
import proofs.«109544_j3770981286463_1_alg».proof.Proof.Gen.KernelIdeal.Frame
import proofs.«109544_j3770981286463_1_alg».proof.Proof.RefBridge
import Idealize.ShloMosaic.Lib.StableHlo.Run

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.StableHlo (after_cons after_nil)

variable {F : FTy → Type} [FloatOps F]
variable (m : (ℓ : Loc nD τ sig) → Buf (Elt F) ℓ) (ρ : Dev nD → PrngReg)

/-! ## Before the first stage -/

set_option maxHeartbeats 4000000 in
/-- The evolved weight, as the first stage finds it, is the reference's. -/
theorem entry0_weight (c : Dev nD) :
    W3 m ρ c (Proc.devRef .tc main_v37) = Cert.ReferenceIdeal.Read.val_main_v37 (F := F) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps0_2 (StableHlo.after hostOps0_1 (StableHlo.after hostOps0 (W0 m ρ c))) (Proc.devRef .tc main_v37) = _
  after_results_simp
  rfl

set_option maxHeartbeats 4000000 in
/-- The features, as the first stage finds them, are the launch argument. -/
theorem entry0_features (c : Dev nD) : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results_simp

set_option maxHeartbeats 4000000 in
/-- The source nodes with the self-loops appended are the reference's. -/
theorem entry0_rows (c : Dev nD) :
    W3 m ρ c (Proc.devRef .tc main_v41) = Cert.ReferenceIdeal.Read.val_main_v41 (F := F) (m ((c : Thread nD τ).loc main_arg1)) := by
  show StableHlo.after hostOps0_2 (StableHlo.after hostOps0_1 (StableHlo.after hostOps0 (W0 m ρ c))) (Proc.devRef .tc main_v41) = _
  after_results_simp
  rfl

set_option maxHeartbeats 4000000 in
/-- The target nodes with the self-loops appended are the reference's. -/
theorem entry0_cols (c : Dev nD) :
    W3 m ρ c (Proc.devRef .tc main_v44) = Cert.ReferenceIdeal.Read.val_main_v44 (F := F) (m ((c : Thread nD τ).loc main_arg1)) := by
  show StableHlo.after hostOps0_2 (StableHlo.after hostOps0_1 (StableHlo.after hostOps0 (W0 m ρ c))) (Proc.devRef .tc main_v44) = _
  after_results_simp
  rfl

set_option maxHeartbeats 8000000 in
/-- The symmetric normalisation `dinv[row] · ew · dinv[col]` is the reference's. -/
theorem entry0_norm (c : Dev nD) :
    W3 m ρ c (Proc.devRef .tc main_v69) = Cert.ReferenceIdeal.Read.val_main_v69 (F := F) (m ((c : Thread nD τ).loc main_arg1)) (m ((c : Thread nD τ).loc main_arg2)) := by
  show StableHlo.after hostOps0_2 (StableHlo.after hostOps0_1 (StableHlo.after hostOps0 (W0 m ρ c))) (Proc.devRef .tc main_v69) = _
  after_results_simp
  rfl

/-! ## Between the stages: the first stage writes only its output array -/

theorem mid_rows (c : Dev nD) :
    W4 m ρ c (Proc.devRef .tc main_v41) = Cert.ReferenceIdeal.Read.val_main_v41 (F := F) (m ((c : Thread nD τ).loc main_arg1)) :=
  (W4_of_ne m ρ c main_v41 (by decide)).trans (entry0_rows m ρ c)
theorem mid_cols (c : Dev nD) :
    W4 m ρ c (Proc.devRef .tc main_v44) = Cert.ReferenceIdeal.Read.val_main_v44 (F := F) (m ((c : Thread nD τ).loc main_arg1)) :=
  (W4_of_ne m ρ c main_v44 (by decide)).trans (entry0_cols m ρ c)
theorem mid_norm (c : Dev nD) :
    W4 m ρ c (Proc.devRef .tc main_v69) = Cert.ReferenceIdeal.Read.val_main_v69 (F := F) (m ((c : Thread nD τ).loc main_arg1)) (m ((c : Thread nD τ).loc main_arg2)) :=
  (W4_of_ne m ρ c main_v69 (by decide)).trans (entry0_norm m ρ c)
/-- The transformed features between the stages are what the first stage's write-backs leave. -/
theorem mid_transformed (c : Dev nD) :
    W4 m ρ c (Proc.devRef .tc main_v70) = (dat0 (V3 m ρ) c).arrAt 2 cfg0.N := W4_arr m ρ c 2

/-! ## Before the second stage -/

set_option maxHeartbeats 4000000 in
/-- The neighbourhood sums the second stage finds are the reference's aggregation of whatever transformed
    features the first stage left. -/
theorem entry1_sums (c : Dev nD) :
    W5 m ρ c (Proc.devRef .tc main_v83)
      = Cert.ReferenceIdeal.Bridge.aggregate (F := F) (m ((c : Thread nD τ).loc main_arg1)) (m ((c : Thread nD τ).loc main_arg2)) (W4 m ρ c (Proc.devRef .tc main_v70)) := by
  show StableHlo.after hostOps1 (W4 m ρ c) (Proc.devRef .tc main_v83) = _
  after_results_simp
  rw [mid_rows m ρ c, mid_cols m ρ c, mid_norm m ρ c]
  rfl

set_option maxHeartbeats 4000000 in
/-- The transposed output weight is the reference's. -/
theorem entry1_weight (c : Dev nD) :
    W5 m ρ c (Proc.devRef .tc main_v84) = Cert.ReferenceIdeal.Read.val_main_v85 (F := F) (m ((c : Thread nD τ).loc main_arg8)) := by
  show StableHlo.after hostOps1 (W4 m ρ c) (Proc.devRef .tc main_v84) = _
  after_results_simp
  rw [W4_of_ne m ρ c main_arg8 (by decide)]
  show Cert.ReferenceIdeal.Read.val_main_v85 (F := F) (StableHlo.after hostOps0_2 (StableHlo.after hostOps0_1 (StableHlo.after hostOps0 (W0 m ρ c))) (Proc.devRef .tc main_arg8)) = _
  after_results_simp

set_option maxHeartbeats 4000000 in
/-- The bias the second stage finds is the launch argument. -/
theorem entry1_bias (c : Dev nD) : W5 m ρ c (Proc.devRef .tc main_arg9) = (m ((c : Thread nD τ).loc main_arg9)) := by
  show StableHlo.after hostOps1 (W4 m ρ c) (Proc.devRef .tc main_arg9) = _
  after_results_simp
  rw [W4_of_ne m ρ c main_arg9 (by decide)]
  show StableHlo.after hostOps0_2 (StableHlo.after hostOps0_1 (StableHlo.after hostOps0 (W0 m ρ c))) (Proc.devRef .tc main_arg9) = _
  after_results_simp

end Cert.KernelIdeal.HostSide

end
-- ==== Proof.MatmulRegion.lean ====
/-
  The first tiled stage, read as a value: after its 25 grid points have each written their 2000-row block,
  the output array is the matrix product of the two arrays the stage was entered with.
-/
import proofs.«109544_j3770981286463_1_alg».proof.Proof.Gen.KernelIdeal.Frame
import proofs.«109544_j3770981286463_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.MatmulRegion

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## One block: the body's arithmetic at an entry

The contraction pairs axis 1 of the left block with axis 0 of the right one; the left block's axis 0 and the
right block's axis 1 survive as the result's row and column. The four facts below say where each operand is
read for result entry `i` and contraction index `k`. -/

/-- The left operand's row is the result's row. -/
theorem lhs_row (i : S2000x128.Idx) (k : dot_S2000x128_S128x128_S2000x128_1_0_0_1_n_n.contr.Idx) :
    (dot_S2000x128_S128x128_S2000x128_1_0_0_1_n_n.lhsIdx i k 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left operand's column is the contraction index. -/
theorem lhs_col (i : S2000x128.Idx) (k : dot_S2000x128_S128x128_S2000x128_1_0_0_1_n_n.contr.Idx) :
    (dot_S2000x128_S128x128_S2000x128_1_0_0_1_n_n.lhsIdx i k 1).val = (k ⟨0, by decide⟩).val :=
  dot_S2000x128_S128x128_S2000x128_1_0_0_1_n_n.lhsIdx_val_of_single rfl i k
/-- The right operand's row is the contraction index. -/
theorem rhs_row (i : S2000x128.Idx) (k : dot_S2000x128_S128x128_S2000x128_1_0_0_1_n_n.contr.Idx) :
    (dot_S2000x128_S128x128_S2000x128_1_0_0_1_n_n.rhsIdx i k 0).val = (k ⟨0, by decide⟩).val :=
  dot_S2000x128_S128x128_S2000x128_1_0_0_1_n_n.rhsIdx_val_of_single rfl i k
/-- The right operand's column is the result's column. -/
theorem rhs_col (i : S2000x128.Idx) (k : dot_S2000x128_S128x128_S2000x128_1_0_0_1_n_n.contr.Idx) :
    (dot_S2000x128_S128x128_S2000x128_1_0_0_1_n_n.rhsIdx i k 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Over the extended reals the two narrowings to the short format change nothing, the reshape is to the same
    shape, and the accumulator starts at zero: entry `(p, q)` of what the body stores is the plain sum over `k`
    of `x0[p, k] · x1[k, q]`. -/
theorem payload_apply (x0 : Vec Ideal S2000x128 .f32) (x1 : Vec Ideal S128x128 .f32) (p : Fin 2000) (q : Fin 128) :
    k0_pay1 (F := Ideal) x0 x1 (ix2 p q) = ∑ k : Fin 128, x0 (ix2 p k) * x1 (ix2 k q) := by
  unfold k0_pay1
  rw [shapeCast_self]
  refine (Ideal.matmul_constant_zero_apply dot_S2000x128_S128x128_S2000x128_1_0_0_1_n_n none _ _ (ix2 p q)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_row _ _
    | ⟨1, _⟩ => exact (lhs_col _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_row _ _).trans hk
    | ⟨1, _⟩ => exact rhs_col _ _)
  rw [el, er]
  rfl

/-- So a block's entry `(p, q)` is entry `i` of the product `X · W` as soon as row `p` of the left block is row
    `i 0` of `X` and column `q` of the right block is column `i 1` of `W`. -/
theorem payload_eq_matProd (X : Cert.Spec.Rows.Idx → EReal) (W : Cert.Spec.Sq.Idx → EReal)
    (x0 : Vec Ideal S2000x128 .f32) (x1 : Vec Ideal S128x128 .f32) (i : Cert.Spec.Rows.Idx) (p : Fin 2000) (q : Fin 128)
    (hx : ∀ k : Fin 128, x0 (ix2 p k) = X (ix2 (n0 := 50000) (n1 := 128) (i 0) k))
    (hw : ∀ k : Fin 128, x1 (ix2 k q) = W (ix2 (n0 := 128) (n1 := 128) k (i 1))) :
    k0_pay1 (F := Ideal) x0 x1 (ix2 p q) = Cert.Spec.matProd X W i := by
  refine (payload_apply x0 x1 p q).trans ?_
  unfold Cert.Spec.matProd
  exact Finset.sum_congr rfl fun k _ => by rw [hx k, hw k]

/-! ## One grid point: what it writes back is its block of the product -/

/-- The body's one store, and each of its two loads, starts at the block's origin. -/
theorem origin_zero : (![0, 0] : Fin 2 → Nat) = fun _ => 0 := funext fun a => by fin_cases a <;> rfl

/-- The three index maps over the 25 points: the left operand's row block and the result's row block are both
    the point's number, and every other block index is zero (the weight is one block, read whole every time). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Point `t` writes back rows `2000·t … 2000·t + 1999` of the product: row `p` of its left block is row
    `2000·t + p` of the tall array, which is also the row its result block's row `p` lands on, and the weight
    block is the weight itself. -/
theorem flushed_eq (c : Dev nD) (t : Fin cfg0.N) :
    (dat0 V c).flushed 2 t = ((cfg0.win 2).blk t).view.read (Elt Ideal) (Cert.Spec.matProd (V c main_arg0) (V c main_v37)) := by
  show (cfg0.win 2).cut (grid0.coords t) ((dat0 V c).after 2 t) = _
  rw [after0_2]
  unfold out0_2
  rw [View.canon_unit_zero origin_zero]
  simp only [View.ld_unit_zero (S := S2000x128) origin_zero, View.ld_unit_zero (S := S128x128) origin_zero]
  obtain ⟨e00, e01, e10, e11, e20, e21⟩ := block_indices t
  funext j
  obtain ⟨p, q, rfl⟩ : ∃ (p : Fin 2000) (q : Fin 128), j = ix2 p q := ⟨j 0, j 1, eq_ix2 j⟩
  refine payload_eq_matProd (V c main_arg0) (V c main_v37) (iblk0 V c 0 t) (iblk0 V c 1 t)
    (((cfg0.win 2).blk t).view.emb (ix2 p q)) p q (fun k => ?_) (fun k => ?_)
  · show V c main_arg0 (((cfg0.win 0).blk t).view.emb (ix2 p k)) = _
    refine congrArg (V c main_arg0) (funext fun a => Fin.ext ?_)
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * k.val = k.val; omega
  · show V c main_v37 (((cfg0.win 1).blk t).view.emb (ix2 k q)) = _
    refine congrArg (V c main_v37) (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega

/-! ## All 25 points: their blocks fill the array -/

/-- An entry of the array lies in point `t`'s block exactly when, on each axis, its coordinate is in the
    block's range there. -/
theorem mem_block (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v70).slice (win0_2.rect t)).set ↔ _
  rw [View.set_slice_whole, Rect.mem_set_unit]
  exact Iff.rfl

/-- Row `r` belongs to the block of point `r / 2000` (there are 25 · 2000 = 50000 rows), every column to the one
    column block, and every point writes its block back. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, by show (i 0).val / 2000 < grid0.N; rw [N_0]; omega⟩, rfl⟩
  obtain ⟨-, -, -, -, e20, e21⟩ := block_indices t
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-! ## The stage's output array -/
/-- The array the first stage leaves: `X · W` of the arrays it found at its two input windows. -/
theorem final (c : Dev nD) :
    (dat0 V c).arrAt 2 cfg0.N = Cert.Spec.matProd (V c main_arg0) (V c main_v37) := by
  exact (dat0 V c).arrAt_eq_of_cover 2 (Cert.Spec.matProd (V c main_arg0) (V c main_v37))
    (fun t _ => flushed_eq V c t) covered

end Cert.KernelIdeal.MatmulRegion

end
-- ==== Proof.ReluLinearRegion.lean ====
/-
  The second tiled stage, read as a value: after its 25 grid points have each written their 2000-row block,
  the output array is the rectified affine map of the three arrays the stage was entered with.
-/
import proofs.«109544_j3770981286463_1_alg».proof.Proof.Gen.KernelIdeal.Frame
import proofs.«109544_j3770981286463_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.ReluLinearRegion

open Cert.KernelIdeal Cert.KernelIdeal.Gen Idealize.ShloMosaic Idealize.ShloMosaic.TcCoe Idealize.SL.Sem
open Idealize.ShloMosaic.ValueIdx
open Idealize.ShloMosaic.Pipeline (Dat)

/-! ## One entry of a block's product

The block product contracts the left operand's second axis against the right operand's first. At an output entry
`(p, q)` and a contraction coordinate `k` the left operand is therefore read at `(p, k)` and the right one at
`(k, q)`: the four coordinate facts below say so, axis by axis. -/

/-- The left operand's row is the output's row. -/
theorem lhs_row (i : S2000x128.Idx) (k : dot_S2000x128_S128x128_S2000x128_1_0_0_1_n_n.contr.Idx) :
    (dot_S2000x128_S128x128_S2000x128_1_0_0_1_n_n.lhsIdx i k 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left operand's column is the contraction coordinate. -/
theorem lhs_col (i : S2000x128.Idx) (k : dot_S2000x128_S128x128_S2000x128_1_0_0_1_n_n.contr.Idx) :
    (dot_S2000x128_S128x128_S2000x128_1_0_0_1_n_n.lhsIdx i k 1).val = (k ⟨0, by decide⟩).val :=
  dot_S2000x128_S128x128_S2000x128_1_0_0_1_n_n.lhsIdx_val_of_single rfl i k
/-- The right operand's row is the contraction coordinate. -/
theorem rhs_row (i : S2000x128.Idx) (k : dot_S2000x128_S128x128_S2000x128_1_0_0_1_n_n.contr.Idx) :
    (dot_S2000x128_S128x128_S2000x128_1_0_0_1_n_n.rhsIdx i k 0).val = (k ⟨0, by decide⟩).val :=
  dot_S2000x128_S128x128_S2000x128_1_0_0_1_n_n.rhsIdx_val_of_single rfl i k
/-- The right operand's column is the output's column. -/
theorem rhs_col (i : S2000x128.Idx) (k : dot_S2000x128_S128x128_S2000x128_1_0_0_1_n_n.contr.Idx) :
    (dot_S2000x128_S128x128_S2000x128_1_0_0_1_n_n.rhsIdx i k 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block product into the zero accumulator, at entry `(p, q)`: the sum over the 128 contraction coordinates of the
    left operand at `(p, k)` times the right operand at `(k, q)`. -/
theorem blockProduct_apply (a : FVec Ideal S2000x128 .bf16) (b : FVec Ideal S128x128 .bf16) (p : Fin 2000) (q : Fin 128) :
    matmul (F := Ideal) dot_S2000x128_S128x128_S2000x128_1_0_0_1_n_n none a b (constant (F := Ideal) S2000x128 .f32 0x00000000#32) (ix2 p q)
      = ∑ k : Fin 128, a (ix2 p k) * b (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun ax => Fin.ext (by
    match ax with
    | ⟨0, _⟩ => exact lhs_row _ _
    | ⟨1, _⟩ => exact (lhs_col _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun ax => Fin.ext (by
    match ax with
    | ⟨0, _⟩ => exact (rhs_row _ _).trans hk
    | ⟨1, _⟩ => exact rhs_col _ _)
  rw [el, er]

/-! ## One entry of what a grid point computes -/

/-- The bias, a vector of 128 lanes viewed as one row and repeated down the 2000 rows, reads at `(p, q)` its lane `q`. -/
theorem biasRows_apply (x2 : Vec Ideal S128 .f32) (p : Fin 2000) (q : Fin 128) :
    broadcastTo S2000x128 (shapeCast S1x128 x2 shapeCasts_S128_S1x128) broadcasts_S1x128_S2000x128 (ix2 p q) = x2 (ix1 q) := by
  rw [broadcastTo_1b_ab_apply, shapeCast_a_1a_apply]

/-- The value a grid point stores, at entry `(p, q)` of its block: the rectified left block's row `p` against the
    weight's column `q`, plus the bias at lane `q`. The two narrowing format changes are the identity on the
    extended reals, and the same-shape casts are the identity. -/
theorem payload_apply (x0 : Vec Ideal S2000x128 .f32) (x1 : Vec Ideal S128x128 .f32) (x2 : Vec Ideal S128 .f32)
    (p : Fin 2000) (q : Fin 128) :
    k1_pay1 (F := Ideal) x0 x1 x2 (ix2 p q)
      = (∑ k : Fin 128, max (x0 (ix2 p k)) (Ideal.ofBits .f32 0x00000000#32) * x1 (ix2 k q)) + x2 (ix1 q) := by
  unfold k1_pay1
  rw [ValueIdx.addf_apply, blockProduct_apply, biasRows_apply, shapeCast_self, shapeCast_self]
  rfl

variable (V : (c : Dev nD) → (b : Ref sig .tc) → Buf (Elt Ideal) ((c : Thread nD τ).loc b))

/-! ## What a grid point writes back is its block of the rectified affine map -/

/-- The body reads and writes its rank-2 buffers whole: from the origin, however the zeros are written. -/
theorem origin2 : (![0, 0] : Fin 2 → Nat) = fun _ => 0 := funext fun a => by fin_cases a <;> rfl
/-- The same for the rank-1 bias buffer. -/
theorem origin1 : (![0] : Fin 1 → Nat) = fun _ => 0 := funext fun a => by fin_cases a <;> rfl

/-- Where each window's block sits at grid point `t`, decided over the 25 points: the left operand's block moves down
    the rows with the output's, which is block `t`; the weight and the bias are always their one whole block; no
    window moves along the lanes. -/
theorem blockIndex_facts : ∀ t : Fin cfg1.N,
      win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 1) = 0
    ∧ win1_3.index t (1 : Fin 2) = 0
    ∧ win1_3.index t (0 : Fin 2) = t.val :=
  (by decide +kernel : ∀ t : Fin grid1.N, _)

/-- WHAT POINT `t` WRITES BACK is block `t` of the rectified affine map of the three arrays the stage found. Entry
    `(p, q)` of the block is array entry `(2000 t + p, q)`; the left operand's block holds rows `2000 t …` of its
    array, so its entry `(p, k)` is the array's `(2000 t + p, k)`, and the weight and bias blocks are the whole arrays. -/
theorem flushed_eq (c : Dev nD) (t : Fin cfg1.N) :
    (dat1 V c).flushed 3 t = ((cfg1.win 3).blk t).view.read (Elt Ideal)
      (Cert.Spec.reluAffine (V c main_v83) (V c main_v84) (V c main_arg9)) := by
  show (cfg1.win 3).cut (grid1.coords t) ((dat1 V c).after 3 t) = _
  rw [after1_3]
  unfold out1_3
  rw [View.canon_unit_zero origin2]
  simp only [View.ld_unit_zero (S := S2000x128) origin2, View.ld_unit_zero (S := S128x128) origin2, View.ld_unit_zero (S := S128) origin1]
  obtain ⟨e00, e01, e10, e11, e20, e31, e30⟩ := blockIndex_facts t
  funext j
  obtain ⟨p, q, rfl⟩ : ∃ (p : Fin 2000) (q : Fin 128), j = ix2 p q := ⟨j 0, j 1, eq_ix2 j⟩
  show k1_pay1 (F := Ideal) (iblk1 V c 0 t) (iblk1 V c 1 t) (iblk1 V c 2 t) (ix2 p q)
    = Cert.Spec.reluAffine (V c main_v83) (V c main_v84) (V c main_arg9) (((cfg1.win 3).blk t).view.emb (ix2 p q))
  refine (payload_apply (iblk1 V c 0 t) (iblk1 V c 1 t) (iblk1 V c 2 t) p q).trans ?_
  unfold Cert.Spec.reluAffine
  have hH : ∀ k : Fin 128, iblk1 V c 0 t (ix2 p k)
      = V c main_v83 (ix2 (((cfg1.win 3).blk t).view.emb (ix2 p q) 0) k) := fun k => by
    show V c main_v83 (((cfg1.win 0).blk t).view.emb (ix2 p k)) = _
    refine congrArg (V c main_v83) (funext fun a => Fin.ext ?_)
    match a with
    | ⟨0, _⟩ => show win1_0.index t (0 : Fin 2) * 2000 + 1 * p.val = win1_3.index t (0 : Fin 2) * 2000 + 1 * p.val; omega
    | ⟨1, _⟩ => show win1_0.index t (1 : Fin 2) * 128 + 1 * k.val = k.val; omega
  have hW : ∀ k : Fin 128, iblk1 V c 1 t (ix2 k q)
      = V c main_v84 (ix2 k (((cfg1.win 3).blk t).view.emb (ix2 p q) 1)) := fun k => by
    show V c main_v84 (((cfg1.win 1).blk t).view.emb (ix2 k q)) = _
    refine congrArg (V c main_v84) (funext fun a => Fin.ext ?_)
    match a with
    | ⟨0, _⟩ => show win1_1.index t (0 : Fin 2) * 128 + 1 * k.val = k.val; omega
    | ⟨1, _⟩ => show win1_1.index t (1 : Fin 2) * 128 + 1 * q.val = win1_3.index t (1 : Fin 2) * 128 + 1 * q.val; omega
  have hb : iblk1 V c 2 t (ix1 q)
      = V c main_arg9 (ix1 (((cfg1.win 3).blk t).view.emb (ix2 p q) 1)) := by
    show V c main_arg9 (((cfg1.win 2).blk t).view.emb (ix1 q)) = _
    refine congrArg (V c main_arg9) (funext fun a => Fin.ext ?_)
    match a with
    | ⟨0, _⟩ => show win1_2.index t (0 : Fin 1) * 128 + 1 * q.val = win1_3.index t (1 : Fin 2) * 128 + 1 * q.val; omega
  rw [hb]
  exact congrArg (· + _) (Finset.sum_congr rfl fun k _ => by rw [hH k, hW k])

/-! ## The 25 blocks cover the array -/

/-- An array index is in point `t`'s block iff each coordinate is in the block's range on its axis. -/
theorem mem_block (t : Fin cfg1.N) (i : S50000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v85).slice (win1_3.rect t)).set ↔ _
  rw [View.set_slice_whole, Rect.mem_set_unit]
  exact Iff.rfl

/-- Row `r` of the array lies in the block of point `r / 2000`, and every point writes its block back. -/
theorem cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ : ∃ t : Fin cfg1.N, t.val = (i 0).val / 2000 :=
    ⟨⟨(i 0).val / 2000, by show (i 0).val / 2000 < grid1.N; rw [N_1]; omega⟩, rfl⟩
  obtain ⟨e00, e01, e10, e11, e20, e31, e30⟩ := blockIndex_facts t
  refine ⟨t, flush1_3 t, ?_⟩
  rw [mem_block]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 128 ≤ (i 1).val ∧ (i 1).val < win1_3.index t (1 : Fin 2) * 128 + 128; omega

/-! ## The array after the 25 points -/

/-- The array the second stage leaves: `max(H, 0) · Wt + b` of the arrays it found at its three input windows. -/
theorem final (c : Dev nD) :
    (dat1 V c).arrAt 3 cfg1.N = Cert.Spec.reluAffine (V c main_v83) (V c main_v84) (V c main_arg9) :=
  (dat1 V c).arrAt_eq_of_cover 3 (Cert.Spec.reluAffine (V c main_v83) (V c main_v84) (V c main_arg9))
    (fun t _ => flushed_eq V c t) cover

end Cert.KernelIdeal.ReluLinearRegion

end
-- ==== Proof.lean ====
/-
  A graph convolution whose weight is evolved by one recurrent-cell step, followed by a rectified linear layer:
  `out = max(A · (x · W), 0) · W_linᵀ + b`, where `W` is the cell's update of the initial weight and `A` is the
  degree-normalised adjacency with self-loops, applied as a gather, a scaling and a scatter-add over the edges.

  The tiled program computes the two dense products (`x · W`, and the rectified product with `W_linᵀ` plus the bias)
  in 25 row blocks of 2000 rows each, narrowing its operands to a shorter float format first; everything else it
  computes with the same host operations as the reference, in the same order. Over the extended reals a change of
  float format is the identity and a block of a matrix product is the product of the block, so each tiled stage
  leaves the array the reference's single contraction leaves (`Cert.Spec.matProd`, `Cert.Spec.reluAffine`); the
  host stretches are the reference's stages by name; and the neighbourhood sums are one function (`aggregate`) of
  the transformed features on both sides. Composing these gives equal results from equal arguments. No law of
  arithmetic beyond the definitions is used, so the finiteness of the inputs is never opened.

  The frames of the two tiled programs are the generated ones; the reference's frame is its generated run with the
  result dropped; the idealisation rewrote no operation.
-/
import proofs.«109544_j3770981286463_1_alg».proof.Defs
import proofs.«109544_j3770981286463_1_alg».proof.Proof.Gen.Kernel
import proofs.«109544_j3770981286463_1_alg».proof.Proof.Gen.Kernel.Frame
import proofs.«109544_j3770981286463_1_alg».proof.Proof.Gen.KernelIdeal
import proofs.«109544_j3770981286463_1_alg».proof.Proof.Gen.KernelIdeal.Frame
import proofs.«109544_j3770981286463_1_alg».proof.Proof.Gen.ReferenceIdeal
import proofs.«109544_j3770981286463_1_alg».proof.Proof.Gen.ReferenceIdeal.Run
import proofs.«109544_j3770981286463_1_alg».proof.Proof.Gen.ReferenceIdeal.Read
import proofs.«109544_j3770981286463_1_alg».proof.Proof.Gen.Pre_finite_inputs
import proofs.«109544_j3770981286463_1_alg».proof.Proof.KernelRun
import proofs.«109544_j3770981286463_1_alg».proof.Proof.HostBridge
import proofs.«109544_j3770981286463_1_alg».proof.Proof.MatmulRegion
import proofs.«109544_j3770981286463_1_alg».proof.Proof.ReluLinearRegion
import proofs.«109544_j3770981286463_1_alg».proof.Proof.RefBridge
import Idealize.ShloMosaic.Adequacy
import Idealize.ShloMosaic.Init

set_option maxRecDepth 16384

noncomputable section

namespace Cert.Proof

open Idealize.ShloMosaic Idealize.ShloMosaic.TcCoe Idealize.SL.Sem

/-! ## The tiled program's result is the reference's last stage of the arguments -/

section KernelValue

open Cert.KernelIdeal Cert.KernelIdeal.Gen Cert.KernelIdeal.HostSide
open Cert.ReferenceIdeal.Read Cert.ReferenceIdeal.Bridge

variable (m : (ℓ : Loc Cert.KernelIdeal.nD Cert.KernelIdeal.τ Cert.KernelIdeal.sig) → Buf (Elt Ideal) ℓ)
  (ρ : Dev Cert.KernelIdeal.nD → PrngReg)

/-- The transformed features between the two stages: the first stage's array is `x · W` of what it found, which
    is the launch features and the evolved weight, and that product is the reference's single contraction. -/
theorem transformed_eq (c : Dev Cert.KernelIdeal.nD) :
    W4 m ρ c (Proc.devRef .tc main_v70) = val_main_v70 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) :=
  calc W4 m ρ c (Proc.devRef .tc main_v70)
    _ = (dat0 (V3 m ρ) c).arrAt 2 cfg0.N := mid_transformed m ρ c
    _ = Cert.Spec.matProd (W3 m ρ c (Proc.devRef .tc main_arg0)) (W3 m ρ c (Proc.devRef .tc main_v37)) :=
        Cert.KernelIdeal.MatmulRegion.final (V3 m ρ) c
    _ = Cert.Spec.matProd (m ((c.tc : Thread Cert.KernelIdeal.nD Cert.KernelIdeal.τ).loc Cert.KernelIdeal.main_arg0))
          (val_main_v37 (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
            (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) := by
        rw [entry0_features m ρ c, entry0_weight m ρ c]
    _ = _ := (v70_eq _ _ _ _ _ _).symm

/-- The result array after the run: the second stage's array is the rectified affine map of what it found — the
    aggregation of the transformed features, the transposed output weight, the bias —, which is the reference's
    last stage of the launch arguments. -/
theorem result_eq (c : Dev Cert.KernelIdeal.nD) :
    W6 m ρ c (Proc.devRef .tc main_v85) = val_main_v89 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)) :=
  calc W6 m ρ c (Proc.devRef .tc main_v85)
    _ = (dat1 (V5 m ρ) c).arrAt 3 cfg1.N := W6_arr m ρ c 3
    _ = Cert.Spec.reluAffine (W5 m ρ c (Proc.devRef .tc main_v83)) (W5 m ρ c (Proc.devRef .tc main_v84))
          (W5 m ρ c (Proc.devRef .tc main_arg9)) := Cert.KernelIdeal.ReluLinearRegion.final (V5 m ρ) c
    _ = Cert.Spec.reluAffine
          (aggregate (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
            (val_main_v70 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
              (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))))
          (val_main_v85 (F := Ideal) (m ((c.tc : Thread Cert.KernelIdeal.nD Cert.KernelIdeal.τ).loc Cert.KernelIdeal.main_arg8))) (m ((c.tc : Thread Cert.KernelIdeal.nD Cert.KernelIdeal.τ).loc Cert.KernelIdeal.main_arg9)) := by
        rw [entry1_sums m ρ c, entry1_weight m ρ c, entry1_bias m ρ c, transformed_eq m ρ c]
    _ = _ := by rw [← v83_eq, ← v89_eq]

end KernelValue

/-! ## The claims -/

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote nothing: there is nothing to restate. -/
theorem preserves : Cert.preserves_Kernel_KernelIdeal := trivial

/-- From memories that agree on the arguments both programs end with the reference's last stage of those arguments
    in their result arrays. -/
theorem algebraic : Cert.algebraic_KernelIdeal_ReferenceIdeal := by
  intro m ρ m' ρ' _ hagree
  refine ⟨fun c => Cert.ReferenceIdeal.Read.val_main_v89 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono (fun r h c => ⟨(h c).1.trans (result_eq m ρ c), (h c).2⟩)
      (Cert.KernelIdeal.Run.run_main (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v89_eq]
    obtain ⟨h0, h1, h2, h3, h4, h5, h6, h7, h8, h9⟩ := hagree c
    rw [h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
